-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S16384x1 : Shape := ⟨2, ![16384, 1]⟩
abbrev S1x16384 : Shape := ⟨2, ![1, 16384]⟩
abbrev S128x64 : Shape := ⟨2, ![128, 64]⟩
abbrev S1x128 : Shape := ⟨2, ![1, 128]⟩
abbrev S16384 : Shape := ⟨1, ![16384]⟩
abbrev S128 : Shape := ⟨1, ![128]⟩
abbrev S128x1 : Shape := ⟨2, ![128, 1]⟩
abbrev S64x128 : Shape := ⟨2, ![64, 128]⟩
abbrev S16384x128 : Shape := ⟨2, ![16384, 128]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x1, .f32⟩
  | .hbm, ⟨3, _⟩ => ⟨S1x16384, .f32⟩
  | .hbm, ⟨4, _⟩ => ⟨S16384, .f32⟩
  | .hbm, ⟨5, _⟩ => ⟨S16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S16384x64, .f32⟩
  | .local _ .vmem, ⟨1, _⟩ => ⟨S128x64, .f32⟩
  | .local _ .vmem, ⟨2, _⟩ => ⟨S128x64, .f32⟩
  | .local _ .vmem, ⟨3, _⟩ => ⟨S16384x1, .f32⟩
  | .local _ .vmem, ⟨4, _⟩ => ⟨S1x128, .f32⟩
  | .local _ .vmem, ⟨5, _⟩ => ⟨S1x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16384x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16384x1_S16384x1_0_0 : ∀ a, (![0, 0] : Fin 2 → Nat) a + S16384x1.size a ≤ S16384x1.size a
  h_S16384x1 : 0 < S16384x1.numel
  inb_S16384x64_S16384x64_0_0 : ∀ a, (![0, 0] : Fin 2 → Nat) a + S16384x64.size a ≤ S16384x64.size a
  h_S16384x64 : 0 < S16384x64.numel
  inb_S128x64_S128x64_0_0 : ∀ a, (![0, 0] : Fin 2 → Nat) a + S128x64.size a ≤ S128x64.size a
  h_S128x64 : 0 < S128x64.numel
  reduces_S16384x64_S16384 : S16384x64.Reduces [1] S16384
  shapeCasts_S16384_S16384x1 : S16384.ShapeCasts S16384x1
  reduces_S128x64_S128 : S128x64.Reduces [1] S128
  shapeCasts_S128_S128x1 : S128.ShapeCasts S128x1
  transposes_S128x64_p1_0_S64x128 : S128x64.Transposes [1, 0] S64x128
  transposes_S128x1_p1_0_S1x128 : S128x1.Transposes [1, 0] S1x128
  broadcasts_S16384x1_S16384x128 : S16384x1.Broadcasts S16384x128
  broadcasts_S1x128_S16384x128 : S1x128.Broadcasts S16384x128
  reduces_S16384x128_S16384 : S16384x128.Reduces [1] S16384
  shapeCasts_S16384x1_S16384x1 : S16384x1.ShapeCasts S16384x1
  reduces_S16384x128_S128 : S16384x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S16384x1_S16384 : S16384x1.ShapeCasts S16384
  shapeCasts_S1x16384_S16384 : S1x16384.ShapeCasts S16384
  reducesTo_S16384_S_d0 : S16384.ReducesTo [0] S_
  h_S_ : 0 < S_.numel
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S16384x64.size a
  hwx0_0 : ∀ i : grid0.Coords, EltTy.bits .f32 = 32 ∨ (Rect.block (s := S16384x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S16384x64.size a
  hwx0_1 : ∀ i : grid0.Coords, EltTy.bits .f32 = 32 ∨ (Rect.block (s := S16384x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x1.size a ≤ S16384x1.size a
  hwx0_2 : ∀ i : grid0.Coords, EltTy.bits .f32 = 32 ∨ (Rect.block (s := S16384x1) S16384x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x16384.size a
  hwx0_3 : ∀ i : grid0.Coords, EltTy.bits .f32 = 32 ∨ (Rect.block (s := S1x16384) S1x128.size (cc0_transform_3 i) (hinb0_3 i)).WholeWords (EltTy.packing .f32)

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_arg0) S16384x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16384x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  reducesTo_S16384x16384_S16384_d0 : S16384x16384.ReducesTo [0] S16384
  dot_S16384x64_S16384x64_S16384x16384_1_1_0_0_n_n_wf : DotDims.WF S16384x64 S16384x64 S16384x16384 [1] [1] [0] [0] [] []

variable [Facts₀]

def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf

class Facts : Prop extends Facts₀ where

variable [Facts]
-- ==== Proof.KernelCases.lean ====
/-
  What one run of the kernel body leaves in the two output blocks, in each of its two control cases, as the body's
  stored values of the blocks it loaded.

  At the first grid point the body first overwrites the row-minimum block with the reset value, reads it back, and
  stores over it the minimum of what it read and of the tile's row minima: the block ends at that stored value taken
  at the reset block.  At every later point there is no reset, and the same store is taken at the block's contents
  carried over from the point before.  In both cases the column-minimum block ends at the tile's column minima.
-/
import proofs.«131520_j1580547968037_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point: the row-minimum block ends at the stored value of the two loaded blocks and the carried contents. -/
theorem rowBlock_later (c : Dev nD) (i : grid0.Coords) (a1 : Memref sig .tc .vmem S16384x64 .f32) (h1 : a1.IsWhole)
    (a2 : Memref sig .tc .vmem S128x64 .f32) (h2 : a2.IsWhole) (a3 : Memref sig .tc .vmem S16384x1 .f32) (h3 : a3.IsWhole)
    (a4 : Memref sig .tc .vmem S1x128 .f32) (h4 : a4.IsWhole) (hc : ¬cond0_0 i)
    (x0 : Vec F S16384x64 .f32) (x1 : Vec F S128x64 .f32) (xo : Vec F S16384x1 .f32) :
    out0_B_2 c i a1 h1 a2 h2 a3 h3 a4 h4 hc x0 x1 xo = k0_pay3 x0 x1 xo := by
  unfold out0_B_2
  rw [View.read_writes_eq_canon _ _ _ (cover0_B_2 c i a1 h1 a2 h2 a3 h3 a4 h4 hc x0 x1 xo)]
  unfold kernelRun0_B
  dsimp only
  sl_unfold_words
  rw [View.canon_unit_zero hz]
  simp only [View.readAt_eq_ld, h1.read_unread, h2.read_unread, h3.read_unread, View.ld_unit_zero (S := S16384x64) hz,
    View.ld_unit_zero (S := S128x64) hz, View.ld_unit_zero (S := S16384x1) hz]

/-- A later point: the column-minimum block ends at the stored value of the two loaded blocks. -/
theorem colBlock_later (c : Dev nD) (i : grid0.Coords) (a1 : Memref sig .tc .vmem S16384x64 .f32) (h1 : a1.IsWhole)
    (a2 : Memref sig .tc .vmem S128x64 .f32) (h2 : a2.IsWhole) (a3 : Memref sig .tc .vmem S16384x1 .f32) (h3 : a3.IsWhole)
    (a4 : Memref sig .tc .vmem S1x128 .f32) (h4 : a4.IsWhole) (hc : ¬cond0_0 i)
    (x0 : Vec F S16384x64 .f32) (x1 : Vec F S128x64 .f32) (xo : Vec F S16384x1 .f32) :
    out0_B_3 c i a1 h1 a2 h2 a3 h3 a4 h4 hc x0 x1 xo = k0_pay4 x0 x1 := by
  unfold out0_B_3
  rw [View.read_writes_eq_canon _ _ _ (cover0_B_3 c i a1 h1 a2 h2 a3 h3 a4 h4 hc x0 x1 xo)]
  unfold kernelRun0_B
  dsimp only
  sl_unfold_words
  rw [View.canon_unit_zero hz]
  simp only [View.readAt_eq_ld, h1.read_unread, h2.read_unread, h3.read_unread, View.ld_unit_zero (S := S16384x64) hz,
    View.ld_unit_zero (S := S128x64) hz, View.ld_unit_zero (S := S16384x1) hz]

/-- The first point: the column-minimum block ends at the stored value of the two loaded blocks. -/
theorem colBlock_first (c : Dev nD) (i : grid0.Coords) (a1 : Memref sig .tc .vmem S16384x64 .f32) (h1 : a1.IsWhole)
    (a2 : Memref sig .tc .vmem S128x64 .f32) (h2 : a2.IsWhole) (a3 : Memref sig .tc .vmem S16384x1 .f32) (h3 : a3.IsWhole)
    (a4 : Memref sig .tc .vmem S1x128 .f32) (h4 : a4.IsWhole) (hc : cond0_0 i)
    (x0 : Vec F S16384x64 .f32) (x1 : Vec F S128x64 .f32) :
    out0_A_3 c i a1 h1 a2 h2 a3 h3 a4 h4 hc x0 x1 = k0_pay4 x0 x1 := by
  unfold out0_A_3
  rw [View.read_writes_eq_canon _ _ _ (cover0_A_3 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S16384x64) hz,
    View.ld_unit_zero (S := S128x64) hz]

/-- The first point: the row-minimum block ends at the stored value of the two loaded blocks and the reset block. -/
theorem rowBlock_first (c : Dev nD) (i : grid0.Coords) (a1 : Memref sig .tc .vmem S16384x64 .f32) (h1 : a1.IsWhole)
    (a2 : Memref sig .tc .vmem S128x64 .f32) (h2 : a2.IsWhole) (a3 : Memref sig .tc .vmem S16384x1 .f32) (h3 : a3.IsWhole)
    (a4 : Memref sig .tc .vmem S1x128 .f32) (h4 : a4.IsWhole) (hc : cond0_0 i)
    (x0 : Vec F S16384x64 .f32) (x1 : Vec F S128x64 .f32) :
    out0_A_2 c i a1 h1 a2 h2 a3 h3 a4 h4 hc x0 x1 = k0_pay3 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S16384x1) hz, View.readCov_unit_zero (S := S16384x1) _ hz]
  simp only [View.readAt_eq_ld, h1.read_unread, h2.read_unread, View.ld_unit_zero (S := S16384x64) hz,
    View.ld_unit_zero (S := S128x64) hz, View.ld_unit_zero (S := S16384x1) hz]

end Cert.KernelIdeal.Cases

end
-- ==== Proof.PairDistance.lean ====
/-
  The mathematics both programs compute, stated once over plain index types.

  For two points a, b of a 64-dimensional space (as rows of extended reals) the distance used here is the
  expanded form  sqrt (max ((|a|² + |b|²) − 2 · ⟨a, b⟩) 0), with |a|² = ∑ₖ aₖ·aₖ and ⟨a, b⟩ = ∑ₖ aₖ·bₖ.  The two
  literals (the factor 2 and the clamp 0) are kept as the words the programs print: both programs print the same
  words, so their values are never needed.

  A minimum of a family, taken as a fold of min from a starting value I, is carried by its universal property:
  c lies below it exactly when c lies below I and below every member.  Two values with the same such description
  are equal, whatever the order or grouping in which they were folded.
-/
import Idealize.ShloMosaic.PureOps.Ideal
import Idealize.ShloMosaic.Lib.ValueIdx
import Idealize.ShloMosaic.PureOps.Reduce
import Mathlib.Data.Finset.Fold
import Mathlib.Order.Basic

noncomputable section

open scoped BigOperators

namespace Cert.PairDistance

open Idealize.ShloMosaic

/-- The factor 2 and the clamp 0, as the printed words read at the extended reals. -/
abbrev two : EReal := Ideal.ofBits .f32 0x40000000#32
abbrev zero : EReal := Ideal.ofBits .f32 0x00000000#32
/-- The starting value of every minimum (the word of +∞). -/
abbrev start : EReal := Ideal.ofBits .f32 0x7F800000#32

/-- Row n of an array of 64-entry rows, as a function of the entry's position. -/
abbrev row {a : Nat} (x : (⟨2, ![a, 64]⟩ : Shape).Idx → EReal) (n : Fin a) : Fin 64 → EReal :=
  fun k => x (ValueIdx.ix2 n k)

/-- The distance of two rows: sqrt (max ((|a|² + |b|²) − 2 · ⟨a, b⟩) 0). -/
def rowDist (a b : Fin 64 → EReal) : EReal :=
  Ideal.sqrt (max (((∑ k, a k * a k) + (∑ k, b k * b k)) - two * (∑ k, a k * b k)) zero)

/-- The inserted index of a reduction along the rows of a two-axis array is (row, position). -/
theorem lift_row {a b : Nat} (h : (⟨2, ![a, b]⟩ : Shape).Reduces [1] ⟨1, ![a]⟩) (n : Fin a) (k : Fin b) :
    h.lift (ValueIdx.ix1 n) k = ValueIdx.ix2 n k :=
  funext fun c => Fin.ext (by match c with | ⟨0, _⟩ => rfl | ⟨1, _⟩ => rfl)

/-- The inserted index of a reduction down the columns of a two-axis array is (position, column). -/
theorem lift_col {a b : Nat} (h : (⟨2, ![a, b]⟩ : Shape).Reduces [0] ⟨1, ![b]⟩) (q : Fin b) (k : Fin a) :
    h.lift (ValueIdx.ix1 q) k = ValueIdx.ix2 k q :=
  funext fun c => Fin.ext (by match c with | ⟨0, _⟩ => rfl | ⟨1, _⟩ => rfl)

/-- v is the minimum of I and of the members f i with P i: c ≤ v exactly when c ≤ I and c ≤ f i for all such i. -/
def IsMinOf {ι : Type} (v I : EReal) (P : ι → Prop) (f : ι → EReal) : Prop :=
  ∀ c : EReal, c ≤ v ↔ c ≤ I ∧ ∀ i, P i → c ≤ f i

/-- Such a description determines the value. -/
theorem IsMinOf.unique {ι : Type} {v w I : EReal} {P : ι → Prop} {f : ι → EReal}
    (hv : IsMinOf v I P f) (hw : IsMinOf w I P f) : v = w :=
  eq_of_forall_le_iff fun c => (hv c).trans (hw c).symm

/-- The description depends only on which members are taken, and on their values there. -/
theorem IsMinOf.congr {ι : Type} {v I : EReal} {P Q : ι → Prop} {f g : ι → EReal}
    (hv : IsMinOf v I P f) (hPQ : ∀ i, P i ↔ Q i) (hfg : ∀ i, P i → f i = g i) : IsMinOf v I Q g := fun c =>
  (hv c).trans (and_congr_right fun _ =>
    ⟨fun h i hq => hfg i ((hPQ i).mpr hq) ▸ h i ((hPQ i).mpr hq), fun h i hp => (hfg i hp).symm ▸ h i ((hPQ i).mp hp)⟩)

/-- A fold of min over a whole finite index type is the minimum of its start and all members. -/
theorem isMinOf_fold {ι : Type} [Fintype ι] (I : EReal) (f : ι → EReal) :
    IsMinOf ((Finset.univ : Finset ι).fold min I f) I (fun _ => True) f := fun c => by
  rw [Finset.le_fold_min]
  exact and_congr_right fun _ => ⟨fun h i _ => h i (Finset.mem_univ i), fun h i _ => h i trivial⟩

/-- The minimum of a running value and a fold over a new family joins the two descriptions. -/
theorem le_min_fold_iff {ι : Type} [Fintype ι] (I r : EReal) (f : ι → EReal) (c : EReal) :
    c ≤ min r ((Finset.univ : Finset ι).fold min I f) ↔ c ≤ r ∧ c ≤ I ∧ ∀ i, c ≤ f i := by
  rw [le_min_iff, Finset.le_fold_min]
  exact and_congr_right fun _ => and_congr_right fun _ => ⟨fun h i => h i (Finset.mem_univ i), fun h i _ => h i⟩

/-- With no member taken yet, the starting value is its own minimum. -/
theorem isMinOf_start (I : EReal) (f : Fin 16384 → EReal) :
    IsMinOf I I (fun j : Fin 16384 => j.val < 128 * 0) f := fun _ =>
  ⟨fun h => ⟨h, fun j hj => absurd hj (by omega)⟩, fun h => h.1⟩

/-- One more block of 128 members.  If r is the minimum over the members before position 128·t, and g lists the next
    128 members, then min r (the fold of g) is the minimum over the members before position 128·(t+1). -/
theorem IsMinOf.step {r I : EReal} {f : Fin 16384 → EReal} (t : ℕ) (ht : t < 128) (g : Fin 128 → EReal)
    (hr : IsMinOf r I (fun j : Fin 16384 => j.val < 128 * t) f)
    (hg : ∀ q : Fin 128, g q = f ⟨128 * t + q.val, by have := q.isLt; omega⟩) :
    IsMinOf (min r ((Finset.univ : Finset (Fin 128)).fold min I g)) I (fun j : Fin 16384 => j.val < 128 * (t + 1)) f := fun c => by
  rw [le_min_fold_iff, hr c]
  constructor
  · rintro ⟨⟨hI, h1⟩, -, h2⟩
    refine ⟨hI, fun j hj => ?_⟩
    by_cases hlt : j.val < 128 * t
    · exact h1 j hlt
    · have hq : j.val - 128 * t < 128 := by omega
      have h := h2 ⟨j.val - 128 * t, hq⟩
      rw [hg ⟨j.val - 128 * t, hq⟩] at h
      have e : (⟨128 * t + (j.val - 128 * t), by omega⟩ : Fin 16384) = j :=
        Fin.ext (by show 128 * t + (j.val - 128 * t) = j.val; omega)
      exact (congrArg (fun x => c ≤ f x) e).mp h
  · rintro ⟨hI, h⟩
    refine ⟨⟨hI, fun j hj => h j (by omega)⟩, hI, fun q => ?_⟩
    rw [hg q]
    exact h _ (by show 128 * t + q.val < 128 * (t + 1); have := q.isLt; omega)

/-- After all 128 blocks every member has been taken. -/
theorem IsMinOf.all {v I : EReal} {f : Fin 16384 → EReal}
    (hv : IsMinOf v I (fun j : Fin 16384 => j.val < 128 * (127 + 1)) f) : IsMinOf v I (fun _ => True) f :=
  hv.congr (fun j => ⟨fun _ => trivial, fun _ => by have := j.isLt; omega⟩) (fun _ _ => rfl)

/-- So a value carried through all 128 blocks is the fold of min over every member. -/
theorem IsMinOf.eq_fold {v I : EReal} {f : Fin 16384 → EReal}
    (hv : IsMinOf v I (fun j : Fin 16384 => j.val < 128 * (127 + 1)) f) :
    v = (Finset.univ : Finset (Fin 16384)).fold min I f :=
  hv.all.unique (isMinOf_fold I f)

/-- The same for any bound that reaches past the last member. -/
theorem IsMinOf.eq_fold_of_le {v I : EReal} {f : Fin 16384 → EReal} {k : ℕ} (hk : 16384 ≤ k)
    (hv : IsMinOf v I (fun j : Fin 16384 => j.val < k) f) :
    v = (Finset.univ : Finset (Fin 16384)).fold min I f :=
  (hv.congr (fun j => ⟨fun _ => trivial, fun _ => lt_of_lt_of_le j.isLt hk⟩) (fun _ _ => rfl)).unique (isMinOf_fold I f)

end Cert.PairDistance

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.KernelPayload.lean ====
/-
  What the kernel body's three stored values hold, entry by entry, at the extended reals.

  From the resident block x (16384 rows) and the streamed block y (128 rows) the body forms the 16384 × 128 tile
  of distances d(n, q) = rowDist (row n of x) (row q of y): the squared norms are row sums kept as a column
  (for x) and as a column turned into a row (for y), the inner products are x times the transpose of y into a zero
  accumulator, and the rest is entrywise.  It then stores, for each n, the minimum of the carried value and of the
  tile's row n, and, for each q, the minimum of the tile's column q; both minima start from the word of +∞.
-/
import proofs.«131520_j1580547968037_1_alg».proof.Proof.Gen.KernelIdeal.Skeleton
import proofs.«131520_j1580547968037_1_alg».proof.Proof.PairDistance
import proofs.«131520_j1580547968037_1_alg».proof.Proof.LibKeepdims
import proofs.«131520_j1580547968037_1_alg».proof.Proof.LibRowsByCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.PairDistance

/-- A row's sum of squares, as the body computes it. -/
theorem sumsq_apply {a : Nat} (x : FVec Ideal ⟨2, ![a, 64]⟩ .f32) (h : (⟨2, ![a, 64]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ (mulf x x) 0x00000000#32 h hφ hacc (ix1 n) = ∑ k, row x n k * row x n k := by
  rw [Ideal.multiReduction_add_single]
  exact Finset.sum_congr rfl fun k _ => congrArg (fun i => x i * x i) (lift_row h n k)

/-- A minimum along a row of a two-axis array: the fold of min over the row's entries. -/
theorem rowMin_apply {a b : Nat} (v : FVec Ideal ⟨2, ![a, b]⟩ .f32) (acc : BitVec 32)
    (h : (⟨2, ![a, b]⟩ : Shape).Reduces [1] ⟨1, ![a]⟩) (hφ : FKind.Formats .f32) (hacc : acc = FKind.minimumf.neutral .f32 hφ) (n : Fin a) :
    multiReduction (F := Ideal) .minimumf [1] ⟨1, ![a]⟩ v acc h hφ hacc (ix1 n)
      = (Finset.univ : Finset (Fin b)).fold min (Ideal.ofBits .f32 acc) fun q => v (ix2 n q) := by
  rw [multiReduction_minimumf_eq_fold]
  refine (h.fold_filter_drop_single _ _ v (ix1 n)).trans ?_
  exact congrArg (Finset.fold min (Ideal.ofBits .f32 acc) · Finset.univ) (funext fun q => congrArg v (lift_row h n q))

/-- A minimum down a column of a two-axis array: the fold of min over the column's entries. -/
theorem colMin_apply {a b : Nat} (v : FVec Ideal ⟨2, ![a, b]⟩ .f32) (acc : BitVec 32)
    (h : (⟨2, ![a, b]⟩ : Shape).Reduces [0] ⟨1, ![b]⟩) (hφ : FKind.Formats .f32) (hacc : acc = FKind.minimumf.neutral .f32 hφ) (q : Fin b) :
    multiReduction (F := Ideal) .minimumf [0] ⟨1, ![b]⟩ v acc h hφ hacc (ix1 q)
      = (Finset.univ : Finset (Fin a)).fold min (Ideal.ofBits .f32 acc) fun n => v (ix2 n q) := by
  rw [multiReduction_minimumf_eq_fold]
  refine (h.fold_filter_drop_single _ _ v (ix1 q)).trans ?_
  exact congrArg (Finset.fold min (Ideal.ofBits .f32 acc) · Finset.univ) (funext fun n => congrArg v (lift_col h q n))

/-- A square root of an array reads entrywise. -/
theorem sqrt_apply {s : Shape} {φ : FTy} (a : FVec Ideal s φ) (i : s.Idx) : sqrt a i = Ideal.sqrt (a i) := rfl

/-- The product's dimension numbers are those of x · w. -/
theorem plain : Cert.Lib.RowsByCols.Plain dot_S16384x64_S64x128_S16384x128_1_0_0_1_n_n := ⟨rfl, rfl, rfl, rfl, rfl, rfl⟩

/-- The tile of distances, entry (n, q). -/
theorem pay2_apply (x0 : FVec Ideal S16384x64 .f32) (x1 : FVec Ideal S128x64 .f32) (n : Fin 16384) (q : Fin 128) :
    k0_pay2 (F := Ideal) x0 x1 (ix2 n q) = rowDist (row x0 n) (row x1 q) := by
  have e1 : broadcastTo S16384x128 (shapeCast S16384x1 (multiReduction (F := Ideal) .add [1] S16384 (mulf x0 x0) 0x00000000#32 reduces_S16384x64_S16384 (.inl rfl) rfl) shapeCasts_S16384_S16384x1) broadcasts_S16384x1_S16384x128 (ix2 n q)
      = ∑ k, row x0 n k * row x0 n k :=
    (Cert.LibKeepdims.broadcastTo_shapeCast_column_apply _ _ _ n q).trans (sumsq_apply x0 _ _ _ n)
  have e2 : broadcastTo S16384x128 (transpose S1x128 [1, 0] (shapeCast S128x1 (multiReduction (F := Ideal) .add [1] S128 (mulf x1 x1) 0x00000000#32 reduces_S128x64_S128 (.inl rfl) rfl) shapeCasts_S128_S128x1) transposes_S128x1_p1_0_S1x128) broadcasts_S1x128_S16384x128 (ix2 n q)
      = ∑ k, row x1 q k * row x1 q k :=
    (broadcastTo_1b_ab_apply _ _ n q).trans ((transpose_ix2_apply _ _ (0 : Fin 1) q).trans
      ((Cert.LibKeepdims.shapeCast_a_a1_apply _ _ q (0 : Fin 1)).trans (sumsq_apply x1 _ _ _ q)))
  have e3 : matmul (F := Ideal) dot_S16384x64_S64x128_S16384x128_1_0_0_1_n_n none x0 (transpose S64x128 [1, 0] x1 transposes_S128x64_p1_0_S64x128) (constant (F := Ideal) S16384x128 .f32 0x00000000#32) (ix2 n q)
      = ∑ k, row x0 n k * row x1 q k :=
    (Cert.Lib.RowsByCols.matmul_zero_apply plain none x0 _ (ix2 n q)).trans
      (Finset.sum_congr rfl fun k _ => congrArg (x0 (ix2 n k) * ·) (transpose_ix2_apply x1 _ k q))
  unfold k0_pay2 rowDist
  simp only [sqrt_apply, maximumf_apply, subf_apply, addf_apply, mulf_apply, broadcast_apply]
  rw [e1, e2, e3]
  rfl

/-- The stored row minimum, entry n: the carried value against the minimum of the tile's row n. -/
theorem pay3_apply (x0 : FVec Ideal S16384x64 .f32) (x1 : FVec Ideal S128x64 .f32) (xo : FVec Ideal S16384x1 .f32) (n : Fin 16384) (u : Fin 1) :
    k0_pay3 (F := Ideal) x0 x1 xo (ix2 n u)
      = min (xo (ix2 n u)) ((Finset.univ : Finset (Fin 128)).fold min start fun q => rowDist (row x0 n) (row x1 q)) := by
  have e : shapeCast S16384x1 (multiReduction (F := Ideal) .minimumf [1] S16384 (k0_pay2 (F := Ideal) x0 x1) 0x7F800000#32 reduces_S16384x128_S16384 (.inl rfl) rfl) shapeCasts_S16384_S16384x1 (ix2 n u)
      = (Finset.univ : Finset (Fin 128)).fold min start fun q => rowDist (row x0 n) (row x1 q) :=
    (Cert.LibKeepdims.shapeCast_a_a1_apply _ _ n u).trans ((rowMin_apply _ _ _ _ _ n).trans
      (congrArg (Finset.fold min start · Finset.univ) (funext fun q => pay2_apply x0 x1 n q)))
  unfold k0_pay3
  exact congrArg₂ min (congrFun (shapeCast_self xo _) (ix2 n u)) e

/-- The stored column minimum, entry q: the minimum of the tile's column q. -/
theorem pay4_apply (x0 : FVec Ideal S16384x64 .f32) (x1 : FVec Ideal S128x64 .f32) (u : Fin 1) (q : Fin 128) :
    k0_pay4 (F := Ideal) x0 x1 (ix2 u q)
      = (Finset.univ : Finset (Fin 16384)).fold min start fun n => rowDist (row x0 n) (row x1 q) := by
  unfold k0_pay4
  exact (shapeCast_a_1a_apply _ _ u q).trans ((colMin_apply _ _ _ _ _ q).trans
    (congrArg (Finset.fold min start · Finset.univ) (funext fun n => pay2_apply x0 x1 n q)))

/-- The reset value: every entry is the starting value of the minima. -/
theorem pay1_apply (i : S16384x1.Idx) : k0_pay1 (F := Ideal) i = start := rfl

end Cert.KernelIdeal.Payload

end
-- ==== Proof.KernelPoints.lean ====
/-
  What the two output blocks hold after each grid point, as minima of distances between rows of the two arrays.

  The first array x is resident: its window's block is the whole array at every point.  The second array y is
  streamed: at point t its window's block is rows 128·t … 128·t + 127.  So the tile the body forms at point t has,
  at (n, q), the distance of row n of x and row 128·t + q of y.

  Column minima.  After point t the column-minimum block holds, at q, the minimum over all n of that distance:
  the finished minimum of column 128·t + q of the full distance matrix.

  Row minima.  After point t the row-minimum block holds, at n, the minimum of the starting value and of the
  distances from row n of x to the rows of y before position 128·(t+1): the first point starts from the reset
  value and takes in the first 128 rows, every later point takes in the next 128 on top of what the point before
  left.  By induction on the point; after the last point every row of y has been taken.
-/
import proofs.«131520_j1580547968037_1_alg».proof.Proof.Gen.KernelIdeal.Frame
import proofs.«131520_j1580547968037_1_alg».proof.Proof.KernelCases
import proofs.«131520_j1580547968037_1_alg».proof.Proof.KernelPayload
import proofs.«131520_j1580547968037_1_alg».proof.Proof.PairDistance
import Idealize.ShloMosaic.Lib.Pipeline.Value
import Idealize.ShloMosaic.Lib.ValueIdx

set_option maxRecDepth 16384

noncomputable section

namespace Cert.KernelIdeal.Points

open Cert.KernelIdeal Cert.KernelIdeal.Gen Idealize.ShloMosaic Idealize.ShloMosaic.TcCoe Idealize.SL.Sem
open Idealize.ShloMosaic.ValueIdx Cert.PairDistance

variable (m : (ℓ : Loc nD τ sig) → Buf (Elt Ideal) ℓ)

/-- The two arrays as the region finds them, and the two input blocks at a point, over their literal types. -/
abbrev xarr (c : Dev nD) : FVec Ideal S16384x64 .f32 := V m c main_arg0
abbrev yarr (c : Dev nD) : FVec Ideal S16384x64 .f32 := V m c main_arg1
abbrev xblk (c : Dev nD) (t : Fin cfg0.N) : FVec Ideal S16384x64 .f32 := iblk m c 0 t
abbrev yblk (c : Dev nD) (t : Fin cfg0.N) : FVec Ideal S128x64 .f32 := iblk m c 1 t

/-- The distance of row n of x and row j of y. -/
abbrev D (c : Dev nD) (n j : Fin 16384) : EReal := rowDist (row (xarr m c) n) (row (yarr m c) j)

theorem hN : cfg0.N = 128 := N_0

/-- Row 128·t + q of y, for a point t and a position q in its block. -/
abbrev yrow (t : Fin cfg0.N) (q : Fin 128) : Fin 16384 :=
  ⟨128 * t.val + q.val, by have := lt_of_lt_of_eq t.isLt hN; have := q.isLt; omega⟩

/-- The printed index maps of the two input windows, decided over the grid: the first never moves, the second
    moves one block of rows per point. -/
theorem idx_in : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- The resident block is the whole first array. -/
theorem xblk_row (c : Dev nD) (t : Fin cfg0.N) (n : Fin 16384) : row (xblk m c t) n = row (xarr m c) n := by
  obtain ⟨e0, e1, -, -⟩ := idx_in t
  funext k
  show iblk m c 0 t (ix2 n k) = V m c main_arg0 (ix2 n k)
  unfold iblk
  rw [View.read_apply]
  show V m c main_arg0 _ = V m c main_arg0 _
  congr 1
  funext a
  apply Fin.ext
  match a with
  | ⟨0, _⟩ => show win0_0.index t (0 : Fin 2) * 16384 + 1 * n.val = n.val; rw [e0]; omega
  | ⟨1, _⟩ => show win0_0.index t (1 : Fin 2) * 64 + 1 * k.val = k.val; rw [e1]; omega

/-- The streamed block at point t is rows 128·t … of the second array. -/
theorem yblk_row (c : Dev nD) (t : Fin cfg0.N) (q : Fin 128) : row (yblk m c t) q = row (yarr m c) (yrow t q) := by
  obtain ⟨-, -, e0, e1⟩ := idx_in t
  funext k
  show iblk m c 1 t (ix2 q k) = V m c main_arg1 (ix2 (yrow t q) k)
  unfold iblk
  rw [View.read_apply]
  show V m c main_arg1 _ = V m c main_arg1 _
  congr 1
  funext a
  apply Fin.ext
  match a with
  | ⟨0, _⟩ => show win0_1.index t (0 : Fin 2) * 128 + 1 * q.val = 128 * t.val + q.val; rw [e0]; omega
  | ⟨1, _⟩ => show win0_1.index t (1 : Fin 2) * 64 + 1 * k.val = k.val; rw [e1]; omega

/-! ## The frame's point-by-point contents, by case -/

/-- The row-minimum block after the first point. -/
theorem rowAt_first (c : Dev nD) (t : Fin cfg0.N) (h0 : t.val % 128 = 0) :
    (outsAt0 m c t.val t.isLt).1 = k0_pay3 (F := Ideal) (xblk m c t) (yblk m c t) (k0_pay1 (F := Ideal)) := by
  rw [outsAt0_A m c t h0]
  dsimp only
  exact Cases.rowBlock_first (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t)

/-- The row-minimum block after a later point, over what the point before left. -/
theorem rowAt_later (c : Dev nD) (t : Fin cfg0.N) (h0 : ¬t.val % 128 = 0) :
    (outsAt0 m c t.val t.isLt).1
      = k0_pay3 (F := Ideal) (xblk m c t) (yblk m c t) (outsAt0 m c (t.val - 1) (Nat.lt_of_le_of_lt (Nat.sub_le _ _) t.isLt)).1 := by
  rw [outsAt0_B m c t h0]
  dsimp only
  exact Cases.rowBlock_later (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t)
    (outsAt0 m c (t.val - 1) (Nat.lt_of_le_of_lt (Nat.sub_le _ _) t.isLt)).1

/-- The column-minimum block after any point. -/
theorem colAt (c : Dev nD) (t : Fin cfg0.N) :
    (outsAt0 m c t.val t.isLt).2 = k0_pay4 (F := Ideal) (xblk m c t) (yblk m c t) := by
  by_cases h0 : t.val % 128 = 0
  · rw [outsAt0_A m c t h0]
    dsimp only
    exact Cases.colBlock_first (F := Ideal) c (grid0.coords t) (ms0_0 t) (hs0_0 t) (ms0_1 t) (hs0_1 t) (ms0_2 t) (hs0_2 t)
      (ms0_3 t) (hs0_3 t) ((hcond0_0 t).mpr h0) (iblk m c 0 t) (iblk m c 1 t)
  · rw [outsAt0_B m c t h0]
    dsimp only
    exact Cases.colBlock_later (F := Ideal) c (grid0.coords t) (ms0_0 t) (hs0_0 t) (ms0_1 t) (hs0_1 t) (ms0_2 t) (hs0_2 t)
      (ms0_3 t) (hs0_3 t) (fun h => h0 ((hcond0_0 t).mp h)) (iblk m c 0 t) (iblk m c 1 t)
      (outsAt0 m c (t.val - 1) (Nat.lt_of_le_of_lt (Nat.sub_le _ _) t.isLt)).1

/-! ## Column minima -/

/-- After point t the column-minimum block holds, at q, the minimum of column 128·t + q of the distance matrix. -/
theorem colAt_apply (c : Dev nD) (t : Fin cfg0.N) (u : Fin 1) (q : Fin 128) :
    (outsAt0 m c t.val t.isLt).2 (ix2 u q)
      = (Finset.univ : Finset (Fin 16384)).fold min start fun n => D m c n (yrow t q) := by
  refine (congrFun (colAt m c t) (ix2 u q)).trans ((Payload.pay4_apply (xblk m c t) (yblk m c t) u q).trans ?_)
  exact congrArg (Finset.fold min start · Finset.univ)
    (funext fun n => congrArg₂ rowDist (xblk_row m c t n) (yblk_row m c t q))

/-! ## Row minima -/

/-- The tile's row minimum at point t, as the fold over the block's 128 positions of the distances to rows of y. -/
theorem tileRow (c : Dev nD) (t : Fin cfg0.N) (n : Fin 16384) :
    ((Finset.univ : Finset (Fin 128)).fold min start fun q => rowDist (row (xblk m c t) n) (row (yblk m c t) q))
      = (Finset.univ : Finset (Fin 128)).fold min start fun q => D m c n (yrow t q) :=
  congrArg (Finset.fold min start · Finset.univ)
    (funext fun q => congrArg₂ rowDist (xblk_row m c t n) (yblk_row m c t q))

/-- After point t the row-minimum block holds, at n, the minimum of the starting value and of the distances from
    row n of x to the rows of y before position 128·(t+1). -/
theorem rowAt_isMin (c : Dev nD) (n : Fin 16384) (u : Fin 1) : ∀ (t : ℕ) (ht : t < cfg0.N),
    IsMinOf ((outsAt0 m c t ht).1 (ix2 n u)) start (fun j : Fin 16384 => j.val < 128 * (t + 1)) (D m c n)
  | 0, ht => by
    have e : (outsAt0 m c 0 ht).1 (ix2 n u)
        = min start ((Finset.univ : Finset (Fin 128)).fold min start fun q => D m c n (yrow ⟨0, ht⟩ q)) :=
      (congrFun (rowAt_first m c ⟨0, ht⟩ rfl) (ix2 n u)).trans
        ((Payload.pay3_apply (xblk m c ⟨0, ht⟩) (yblk m c ⟨0, ht⟩) _ n u).trans
          (congrArg₂ min (Payload.pay1_apply (ix2 n u)) (tileRow m c ⟨0, ht⟩ n)))
    rw [e]
    exact (isMinOf_start start (D m c n)).step 0 (by omega) _ fun q => rfl
  | t + 1, ht => by
    have h128 : t + 1 < 128 := lt_of_lt_of_eq ht hN
    have hB : ¬(⟨t + 1, ht⟩ : Fin cfg0.N).val % 128 = 0 := by dsimp only; omega
    have e : (outsAt0 m c (t + 1) ht).1 (ix2 n u)
        = min ((outsAt0 m c t (Nat.lt_of_succ_lt ht)).1 (ix2 n u))
            ((Finset.univ : Finset (Fin 128)).fold min start fun q => D m c n (yrow ⟨t + 1, ht⟩ q)) :=
      (congrFun (rowAt_later m c ⟨t + 1, ht⟩ hB) (ix2 n u)).trans
        ((Payload.pay3_apply (xblk m c ⟨t + 1, ht⟩) (yblk m c ⟨t + 1, ht⟩) _ n u).trans
          (congrArg₂ min rfl (tileRow m c ⟨t + 1, ht⟩ n)))
    rw [e]
    exact (rowAt_isMin c n u t (Nat.lt_of_succ_lt ht)).step (t + 1) h128 _ fun q => rfl

/-- The last point. -/
abbrev tLast : Fin cfg0.N := ⟨127, by rw [hN]; decide⟩

/-- After the last point the row-minimum block holds, at n, the minimum of row n of the distance matrix. -/
theorem rowLast_apply (c : Dev nD) (t : Fin cfg0.N) (h : t.val = 127) (n : Fin 16384) (u : Fin 1) :
    (outsAt0 m c t.val t.isLt).1 (ix2 n u) = (Finset.univ : Finset (Fin 16384)).fold min start (D m c n) :=
  (rowAt_isMin m c n u t.val t.isLt).eq_fold_of_le (by omega)

end Cert.KernelIdeal.Points

end
-- ==== Proof.KernelArrays.lean ====
/-
  The two result arrays of the region, entry by entry.

  The row-minimum window never moves and is written back once, after the last point: its one block is the whole
  16384 × 1 array, which therefore ends holding, at n, the minimum of row n of the distance matrix.  The
  column-minimum window moves one block of 128 columns per point and is written back at every point: column j of
  the 1 × 16384 array lies in the block of point j / 128, at position j mod 128, which holds the minimum of column j.
-/
import proofs.«131520_j1580547968037_1_alg».proof.Proof.Gen.KernelIdeal.Frame
import proofs.«131520_j1580547968037_1_alg».proof.Proof.KernelPoints
import proofs.«131520_j1580547968037_1_alg».proof.Proof.PairDistance
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.PairDistance Cert.KernelIdeal.Points
open Idealize.ShloMosaic.Pipeline (Dat)

variable (m : (ℓ : Loc nD τ sig) → Buf (Elt Ideal) ℓ)

/-- The minimum of row n, and of column j, of the distance matrix. -/
def rowMin (c : Dev nD) (n : Fin 16384) : EReal := (Finset.univ : Finset (Fin 16384)).fold min start (D m c n)
def colMin (c : Dev nD) (j : Fin 16384) : EReal := (Finset.univ : Finset (Fin 16384)).fold min start fun n => D m c n j

/-- The two result arrays as whole-array functions. -/
abbrev rowArr (c : Dev nD) : Buf (Elt Ideal) ((c : Thread nD τ).loc main_v0_0) :=
  fun (i : S16384x1.Idx) => rowMin m c ⟨(i 0).val, (i 0).isLt⟩
abbrev colArr (c : Dev nD) : Buf (Elt Ideal) ((c : Thread nD τ).loc main_v0_1) :=
  fun (i : S1x16384.Idx) => colMin m c ⟨(i 1).val, (i 1).isLt⟩

/-- The printed index maps of the two output windows, decided over the grid. -/
theorem idx_out : ∀ t : Fin cfg0.N, win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Neither output window is cut at the array's end: what a write-back moves of a block's contents is the contents. -/
theorem cut_row (t : Fin cfg0.N) (X : Vec Ideal S16384x1 .f32) (j : ((cfg0.win 2).xblock (cfg0.grid.coords t)).Idx) :
    (cfg0.win 2).cut (grid0.coords t) X j = X j := rfl
theorem cut_col (t : Fin cfg0.N) (X : Vec Ideal S1x128 .f32) (j : ((cfg0.win 3).xblock (cfg0.grid.coords t)).Idx) :
    (cfg0.win 3).cut (grid0.coords t) X j = X j := rfl

/-- A block of an array, read at a position, is the array at the position's place in the array. -/
theorem read_row (c : Dev nD) (t : Fin cfg0.N) (G : Buf (Elt Ideal) ((c : Thread nD τ).loc main_v0_0))
    (j : ((cfg0.win 2).xblock (cfg0.grid.coords t)).Idx) :
    ((cfg0.win 2).blk t).view.read (Elt Ideal) G j = G (((cfg0.win 2).blk t).view.emb j) := rfl
theorem read_col (c : Dev nD) (t : Fin cfg0.N) (G : Buf (Elt Ideal) ((c : Thread nD τ).loc main_v0_1))
    (j : ((cfg0.win 3).xblock (cfg0.grid.coords t)).Idx) :
    ((cfg0.win 3).blk t).view.read (Elt Ideal) G j = G (((cfg0.win 3).blk t).view.emb j) := rfl

/-! ## The row minima -/

/-- The one write-back of the row-minimum window, after the last point, writes the whole array of row minima. -/
theorem flushed_row (c : Dev nD) (t : Fin cfg0.N) (hf : (cfg0.win 2).flush t = true) :
    (dats m 0 c).flushed 2 t = ((cfg0.win 2).blk t).view.read (Elt Ideal) (rowArr m c) := by
  have h127 : t.val = 127 := by have := (flush0_2 t).mp hf; have := lt_of_lt_of_eq t.isLt hN; omega
  obtain ⟨e0, e1, -, -⟩ := idx_out t
  show (cfg0.win 2).cut (grid0.coords t) ((dats m 0 c).after 2 t) = _
  rw [after0_2]
  funext j
  refine (cut_row t _ j).trans (Eq.trans ?_ (read_row c t (rowArr m c) j).symm)
  obtain ⟨n, u, rfl⟩ : ∃ (n : Fin 16384) (u : Fin 1), j = ix2 n u := ⟨j 0, j 1, eq_ix2 j⟩
  refine (rowLast_apply m c t h127 n u).trans ?_
  refine congrArg (rowMin m c) (Fin.ext ?_)
  show n.val = win0_2.index t (0 : Fin 2) * 16384 + 1 * n.val
  rw [e0]; omega

/-- An index of the row-minimum array is in point t's block iff each coordinate is in the block's range. -/
theorem mem_blk_row (t : Fin cfg0.N) (i : S16384x1.Idx) :
    i ∈ ((cfg0.win 2).blk t).view.set ↔ ∀ a : Fin 2, win0_2.index t a * S16384x1.size a ≤ (i a).val ∧ (i a).val < win0_2.index t a * S16384x1.size a + S16384x1.size a := by
  show i ∈ ((View.whole main_v0_0).slice (win0_2.rect t)).set ↔ _
  rw [View.set_slice_whole, Rect.mem_set_unit]
  exact Iff.rfl

/-- The row-minimum array after the region. -/
theorem rowFinal (c : Dev nD) : (dats m 0 c).arrAt 2 cfg0.N = rowArr m c :=
  (dats m 0 c).arrAt_eq_of_cover 2 (rowArr m c) (flushed_row m c) fun i => by
    obtain ⟨e0, e1, -, -⟩ := idx_out tLast
    refine ⟨tLast, (flush0_2 tLast).mpr rfl, (mem_blk_row tLast i).mpr fun a => ?_⟩
    have h0 : (i 0 : Nat) < 16384 := (i 0).isLt
    have h1 : (i 1 : Nat) < 1 := (i 1).isLt
    match a with
    | ⟨0, _⟩ => show win0_2.index tLast (0 : Fin 2) * 16384 ≤ (i 0).val ∧ (i 0).val < win0_2.index tLast (0 : Fin 2) * 16384 + 16384; rw [e0]; omega
    | ⟨1, _⟩ => show win0_2.index tLast (1 : Fin 2) * 1 ≤ (i 1).val ∧ (i 1).val < win0_2.index tLast (1 : Fin 2) * 1 + 1; rw [e1]; omega

/-! ## The column minima -/

/-- What point t writes back of the column-minimum window is block t of the array of column minima. -/
theorem flushed_col (c : Dev nD) (t : Fin cfg0.N) :
    (dats m 0 c).flushed 3 t = ((cfg0.win 3).blk t).view.read (Elt Ideal) (colArr m c) := by
  obtain ⟨-, -, e0, e1⟩ := idx_out t
  show (cfg0.win 3).cut (grid0.coords t) ((dats m 0 c).after 3 t) = _
  rw [after0_3]
  funext j
  refine (cut_col t _ j).trans (Eq.trans ?_ (read_col c t (colArr m c) j).symm)
  obtain ⟨u, q, rfl⟩ : ∃ (u : Fin 1) (q : Fin 128), j = ix2 u q := ⟨j 0, j 1, eq_ix2 j⟩
  refine (colAt_apply m c t u q).trans ?_
  refine congrArg (colMin m c) (Fin.ext ?_)
  show 128 * t.val + q.val = win0_3.index t (1 : Fin 2) * 128 + 1 * q.val
  rw [e1]; omega

/-- An index of the column-minimum array is in point t's block iff each coordinate is in the block's range. -/
theorem mem_blk_col (t : Fin cfg0.N) (i : S1x16384.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v0_1).slice (win0_3.rect t)).set ↔ _
  rw [View.set_slice_whole, Rect.mem_set_unit]
  exact Iff.rfl

/-- The column-minimum array after the region: column j is covered by the block of point j / 128. -/
theorem colFinal (c : Dev nD) : (dats m 0 c).arrAt 3 cfg0.N = colArr m c :=
  (dats m 0 c).arrAt_eq_of_cover 3 (colArr m c) (fun t _ => flushed_col m c t) fun i => by
    have h0 : (i 0 : Nat) < 1 := (i 0).isLt
    have h1 : (i 1 : Nat) < 16384 := (i 1).isLt
    let t : Fin cfg0.N := ⟨(i 1).val / 128, by rw [hN]; omega⟩
    obtain ⟨-, -, e0, e1⟩ := idx_out t
    have ht : t.val = (i 1).val / 128 := rfl
    refine ⟨t, flush0_3 t, (mem_blk_col t i).mpr fun a => ?_⟩
    match a with
    | ⟨0, _⟩ => show win0_3.index t (0 : Fin 2) * 1 ≤ (i 0).val ∧ (i 0).val < win0_3.index t (0 : Fin 2) * 1 + 1; rw [e0]; omega
    | ⟨1, _⟩ => show win0_3.index t (1 : Fin 2) * 128 ≤ (i 1).val ∧ (i 1).val < win0_3.index t (1 : Fin 2) * 128 + 128; rw [e1, ht]; omega

end Cert.KernelIdeal.Arrays

end
-- ==== Proof.KernelResult.lean ====
/-
  The idealized kernel's run, read: its result is the sum of the two means of the minima.

  After the region the host lines recast the 16384 × 1 array of row minima and the 1 × 16384 array of column minima
  as vectors of 16384 entries, sum each from zero, divide each sum by 16384, and add the two quotients.
-/
import proofs.«131520_j1580547968037_1_alg».proof.Proof.Gen.KernelIdeal.Frame
import proofs.«131520_j1580547968037_1_alg».proof.Proof.KernelArrays
import Idealize.ShloMosaic.Lib.Pipeline.Value
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Cert.KernelIdeal.Arrays
open Idealize.ShloMosaic.Pipeline (Dat)

variable (m : (ℓ : Loc nD τ sig) → Buf (Elt Ideal) ℓ) (ρ : Dev nD → PrngReg)

/-- The sum of the means of two vectors of 16384 entries, as the host lines compute it. -/
def meanSum (a b : FVec Ideal S16384 .f32) : FVec Ideal S_ .f32 :=
  addf
    (Host.divf (Host.reduceAdd (F := Ideal) a (constant (F := Ideal) S_ .f32 0x00000000#32) reducesTo_S16384_S_d0 h_S_)
      (constant (F := Ideal) S_ .f32 0x46800000#32))
    (Host.divf (Host.reduceAdd (F := Ideal) b (constant (F := Ideal) S_ .f32 0x00000000#32) reducesTo_S16384_S_d0 h_S_)
      (constant (F := Ideal) S_ .f32 0x46800000#32))

/-- The result: the sum of the means of the row minima and of the column minima. -/
abbrev result (c : Dev nD) : Buf (Elt Ideal) ((c : Thread nD τ).loc main_v7) :=
  meanSum (shapeCast S16384 (rowArr m c) shapeCasts_S16384x1_S16384) (shapeCast S16384 (colArr m c) shapeCasts_S1x16384_S16384)

/-- The host lines after the region, run on the region's two result arrays, leave the result. -/
theorem tail_eq (c : Dev nD) :
    Pipeline.afterTail₀ cfgs (dats m) 0 (V0 m) [hostOps1] c main_v7 = result m c := by
  have hrow : Pipeline.withArrays (cfgs 0).spec c (V0 m c) (fun w => (dats m 0 c).arrAt w (cfgs 0).N) (Proc.devRef .tc main_v0_0)
      = rowArr m c := (Pipeline.withArrays_arr spec0 launch0.win.arr_inj c _ _ 2).trans (rowFinal m c)
  have hcol : Pipeline.withArrays (cfgs 0).spec c (V0 m c) (fun w => (dats m 0 c).arrAt w (cfgs 0).N) (Proc.devRef .tc main_v0_1)
      = colArr m c := (Pipeline.withArrays_arr spec0 launch0.win.arr_inj c _ _ 3).trans (colFinal m c)
  unfold Pipeline.afterTail₀
  show StableHlo.after hostOps1 _ (Proc.devRef .tc main_v7) = _
  after_results
  rw [hrow, hcol]
  rfl

/-- The result buffer is no array of the pipeline and is not scoped: the region leaves it to the host lines. -/
theorem result_rest : main_v7 ∈ Pipeline.restRefs sig (cfgs 0).spec :=
  Pipeline.mem_restRefs_of main_v7 rfl fun w => by fin_cases w <;> decide

/-- The run, read: from any memory, every weakly fair execution of the idealized kernel ends, with its result at the sum
    of the means of the row minima and of the column minima, and with its two arguments as they were. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v7 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  What the reference computes, entry by entry, at the extended reals.

  Its distance matrix has, at (n, m), rowDist (row n of x) (row m of y): the squared norms are host sums from a zero
  starting value (0 + ∑ₖ, and 0 + s = s), broadcast along the other axis; the inner products are one
  contraction over the 64 positions; the rest is entrywise.  Its two directed minima are folds of min from the word
  of +∞ along a row, respectively down a column, of that matrix.
-/
import proofs.«131520_j1580547968037_1_alg».proof.Proof.Gen.ReferenceIdeal.Read
import proofs.«131520_j1580547968037_1_alg».proof.Proof.PairDistance
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx Cert.PairDistance

/-- The host's sum from the zero word is the plain sum. -/
theorem zero_add_sum (s : EReal) : zero + s = s := by
  show Ideal.ofBits .f32 0x00000000#32 + s = s
  rw [Ideal.ofBits_zero_f32, zero_add]

/-- The distance matrix, entry (n, m). -/
theorem dist_apply (x0 x1 : FVec Ideal S16384x64 .f32) (n m : Fin 16384) :
    val_main_v15 (F := Ideal) x0 x1 (ix2 n m) = rowDist (row x0 n) (row x1 m) := by
  have hi1 : ∀ k, idx_main_v1 (idx_main_v5 (idx_main_v7 (ix2 n m))) k = ix2 n k := fun k =>
    funext fun a => Fin.ext (by match a with | ⟨0, _⟩ => rfl | ⟨1, _⟩ => rfl)
  have hi3 : ∀ k, idx_main_v3 (idx_main_v6 (idx_main_v8 (ix2 n m))) k = ix2 m k := fun k =>
    funext fun a => Fin.ext (by match a with | ⟨0, _⟩ => rfl | ⟨1, _⟩ => rfl)
  have hl : ∀ k, lidx_main_v4 (ix2 n m) k = ix2 n k := fun k =>
    funext fun a => Fin.ext (by match a with | ⟨0, _⟩ => rfl | ⟨1, _⟩ => rfl)
  have hr : ∀ k, ridx_main_v4 (ix2 n m) k = ix2 m k := fun k =>
    funext fun a => Fin.ext (by match a with | ⟨0, _⟩ => rfl | ⟨1, _⟩ => rfl)
  have e1 : val_main_v7 (F := Ideal) x0 (ix2 n m) = ∑ k, row x0 n k * row x0 n k := by
    rw [val_main_v7_apply, val_main_v5_apply, val_main_v1_apply]
    refine (zero_add_sum _).trans (Finset.sum_congr rfl fun k _ => ?_)
    rw [hi1]; rfl
  have e2 : val_main_v8 (F := Ideal) x1 (ix2 n m) = ∑ k, row x1 m k * row x1 m k := by
    rw [val_main_v8_apply, val_main_v6_apply, val_main_v3_apply]
    refine (zero_add_sum _).trans (Finset.sum_congr rfl fun k _ => ?_)
    rw [hi3]; rfl
  have e4 : val_main_v4 (F := Ideal) x0 x1 (ix2 n m) = ∑ k, row x0 n k * row x1 m k := by
    rw [val_main_v4_apply]
    exact Finset.sum_congr rfl fun k _ => by rw [hl, hr]
  have e10 : val_main_v10 (F := Ideal) (ix2 n m) = two := (val_main_v10_apply _).trans rfl
  have e13 : val_main_v13 (F := Ideal) (ix2 n m) = zero := (val_main_v13_apply _).trans rfl
  rw [val_main_v15_apply, val_main_v14_apply, val_main_v12_apply, val_main_v9_apply, val_main_v11_apply, e1, e2, e4, e10, e13]
  rfl

/-- The minimum along row n of the distance matrix. -/
theorem rowMin_apply (x0 x1 : FVec Ideal S16384x64 .f32) (n : Fin 16384) :
    val_main_v16 (F := Ideal) x0 x1 (ix1 n)
      = (Finset.univ : Finset (Fin 16384)).fold min start fun m => rowDist (row x0 n) (row x1 m) := by
  unfold val_main_v16
  refine (Host.reduce_eq_fold_single FloatOps.minimumf _ _ reducesTo_S16384x16384_S16384_d1 (by decide) h_S_ (ix1 n)).trans ?_
  exact congrArg (Finset.fold min start · Finset.univ)
    (funext fun m => (congrArg (val_main_v15 (F := Ideal) x0 x1) (lift_row _ n m)).trans (dist_apply x0 x1 n m))

/-- The minimum down column m of the distance matrix. -/
theorem colMin_apply (x0 x1 : FVec Ideal S16384x64 .f32) (m : Fin 16384) :
    val_main_v19 (F := Ideal) x0 x1 (ix1 m)
      = (Finset.univ : Finset (Fin 16384)).fold min start fun n => rowDist (row x0 n) (row x1 m) := by
  unfold val_main_v19
  refine (Host.reduce_eq_fold_single FloatOps.minimumf _ _ reducesTo_S16384x16384_S16384_d0 (by decide) h_S_ (ix1 m)).trans ?_
  exact congrArg (Finset.fold min start · Finset.univ)
    (funext fun n => (congrArg (val_main_v15 (F := Ideal) x0 x1) (lift_col _ m n)).trans (dist_apply x0 x1 n m))

end Cert.ReferenceIdeal.RefValue

end
-- ==== Proof.LibColumnCast.lean ====
/-
  A COLUMN READ AS A VECTOR (a general lemma; it mentions no program).

  An array of shape [a, 1] recast to shape [a] keeps its entries in row-major order, and row-major position of (i, 0)
  in [a, 1] is i, the position of i in [a].  So the recast array at i is the column at (i, 0).
-/
import Idealize.ShloMosaic.Lib.Pipeline.Value
import Idealize.ShloMosaic.Lib.ValueIdx

namespace Cert.Lib.ColumnCast

open Idealize.ShloMosaic Idealize.ShloMosaic.ValueIdx

variable {α : Type}

/-- An `[a, 1]` array recast as the vector `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast
-- ==== Proof.Bridge.lean ====
/-
  The two programs compute one number.

  The idealized kernel ends with the sum of the means of two vectors: the region's 16384 × 1 array of row minima and
  its 1 × 16384 array of column minima, each recast as a vector of 16384 entries.  The reference ends with the sum of
  the means of its two directed minima of the distance matrix.  Entry n of the recast column of row minima is the
  minimum of row n of the distance matrix, which is entry n of the reference's first vector; entry j of the recast
  row of column minima is the minimum of column j, which is entry j of the reference's second vector.  Both
  programs then apply the same sum, the same division by 16384 and the same final addition.
-/
import proofs.«131520_j1580547968037_1_alg».proof.Proof.KernelResult
import proofs.«131520_j1580547968037_1_alg».proof.Proof.RefValue
import proofs.«131520_j1580547968037_1_alg».proof.Proof.LibColumnCast
import Idealize.ShloMosaic.Lib.ValueIdx
import Idealize.ShloMosaic.Lib.ValueLayout

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The kernel's two argument arrays on a core. -/
abbrev xs (c : Dev Cert.KernelIdeal.nD) : FVec Ideal Cert.KernelIdeal.S16384x64 .f32 :=
  m ((c.tc : Thread Cert.KernelIdeal.nD Cert.KernelIdeal.τ).loc Cert.KernelIdeal.main_arg0)
abbrev ys (c : Dev Cert.KernelIdeal.nD) : FVec Ideal Cert.KernelIdeal.S16384x64 .f32 :=
  m ((c.tc : Thread Cert.KernelIdeal.nD Cert.KernelIdeal.τ).loc Cert.KernelIdeal.main_arg1)

/-- The recast column of row minima is the reference's vector of minima along the rows. -/
theorem rows_eq (c : Dev Cert.KernelIdeal.nD) :
    shapeCast Cert.KernelIdeal.S16384 (Cert.KernelIdeal.Arrays.rowArr m c) Cert.KernelIdeal.Facts₀.shapeCasts_S16384x1_S16384
      = Cert.ReferenceIdeal.Read.val_main_v16 (F := Ideal) (xs m c) (ys m c) := by
  funext j
  obtain ⟨n, rfl⟩ : ∃ n : Fin 16384, j = ix1 n := ⟨j 0, eq_ix1 j⟩
  rw [Cert.Lib.ColumnCast.shapeCast_a1_a_apply, Cert.ReferenceIdeal.RefValue.rowMin_apply]
  rfl

/-- The recast row of column minima is the reference's vector of minima down the columns. -/
theorem cols_eq (c : Dev Cert.KernelIdeal.nD) :
    shapeCast Cert.KernelIdeal.S16384 (Cert.KernelIdeal.Arrays.colArr m c) Cert.KernelIdeal.Facts₀.shapeCasts_S1x16384_S16384
      = Cert.ReferenceIdeal.Read.val_main_v19 (F := Ideal) (xs m c) (ys m c) := by
  funext j
  obtain ⟨n, rfl⟩ : ∃ n : Fin 16384, j = ix1 n := ⟨j 0, eq_ix1 j⟩
  rw [shapeCast_1a_a_apply, Cert.ReferenceIdeal.RefValue.colMin_apply]
  rfl

/-- The reference's result, of the kernel's argument arrays, is the kernel's result. -/
theorem result_eq (c : Dev Cert.KernelIdeal.nD) :
    Cert.ReferenceIdeal.Read.val_main_v22 (F := Ideal) (xs m c) (ys m c) = Cert.KernelIdeal.Result.result m c := by
  show _ = Cert.KernelIdeal.Result.meanSum _ _
  rw [rows_eq, cols_eq]
  rfl

end Cert.Bridge

end
-- ==== Proof.lean ====
/-
  The averaged directed distance between two sets of 16384 points in 64 dimensions, computed two ways.

  With d(n, j) = sqrt (max ((|xₙ|² + |yⱼ|²) − 2 · ⟨xₙ, yⱼ⟩) 0) the distance of point n of the first set and point j
  of the second, the quantity is   (1/16384) · ∑ₙ minⱼ d(n, j)  +  (1/16384) · ∑ⱼ minₙ d(n, j).

  The reference forms the whole 16384 × 16384 matrix of distances, takes its minima along the rows and down the
  columns, and averages each.  The kernel never forms the matrix: it walks the second set in 128 blocks of 128
  points, forms at each step the 16384 × 128 tile of distances to that block, finishes the column minima of the
  block's 128 columns on the spot, and folds the tile's row minima into a running row minimum that starts at +∞.

  Over the extended reals the two agree entry by entry, with no condition on the inputs:
    · a distance depends only on the two rows, and both programs write it as the same expression of the same sums
      (a sum from a zero starting value is the plain sum);
    · a minimum over all 16384 columns, taken as 128 successive minima over blocks of 128 joined by min, is the
      minimum over all columns: min is associative, commutative and idempotent, so only the set of members matters.
      This is carried as "c lies below the value iff c lies below +∞ and below every member taken so far", by
      induction on the step;
    · the two averages and the final sum are the same operations of equal vectors.
  Nothing here uses that the inputs are finite.
-/
import proofs.«131520_j1580547968037_1_alg».proof.Defs
import proofs.«131520_j1580547968037_1_alg».proof.Proof.Gen.Kernel
import proofs.«131520_j1580547968037_1_alg».proof.Proof.Gen.Kernel.Skeleton
import proofs.«131520_j1580547968037_1_alg».proof.Proof.Gen.Kernel.Launch
import proofs.«131520_j1580547968037_1_alg».proof.Proof.Gen.Kernel.Points
import proofs.«131520_j1580547968037_1_alg».proof.Proof.Gen.Kernel.Frame
import proofs.«131520_j1580547968037_1_alg».proof.Proof.Gen.KernelIdeal
import proofs.«131520_j1580547968037_1_alg».proof.Proof.Gen.KernelIdeal.Skeleton
import proofs.«131520_j1580547968037_1_alg».proof.Proof.Gen.KernelIdeal.Launch
import proofs.«131520_j1580547968037_1_alg».proof.Proof.Gen.KernelIdeal.Points
import proofs.«131520_j1580547968037_1_alg».proof.Proof.Gen.KernelIdeal.Frame
import proofs.«131520_j1580547968037_1_alg».proof.Proof.Gen.ReferenceIdeal
import proofs.«131520_j1580547968037_1_alg».proof.Proof.Gen.Pre_finite_inputs
import proofs.«131520_j1580547968037_1_alg».proof.Proof.Gen.ReferenceIdeal.Run
import proofs.«131520_j1580547968037_1_alg».proof.Proof.Gen.ReferenceIdeal.Read
import proofs.«131520_j1580547968037_1_alg».proof.Proof.KernelResult
import proofs.«131520_j1580547968037_1_alg».proof.Proof.Bridge
import Idealize.ShloMosaic.Adequacy
import Idealize.ShloMosaic.Init

noncomputable section

namespace Cert.Proof

open Idealize.ShloMosaic Idealize.SL.Sem

/-- The word-level kernel runs to the end and leaves its two arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel's text read over the extended reals is the kernel's text: nothing was rewritten. -/
theorem preserves : Cert.preserves_Kernel_KernelIdeal := trivial

/-- From memories that agree on the two sets of points, both programs end with the same number: the kernel's run
    ends at the sum of the means of its row and column minima, the reference's at its own composed expression of the
    same two arrays, and the two are equal. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
